-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x7 .f32) (main_arg4 : FVec F S7 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg3
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x7 : Shape := ⟨2, ![100000, 7]⟩
abbrev S4000x7 : Shape := ⟨2, ![4000, 7]⟩
abbrev S3300000x7 : Shape := ⟨2, ![3300000, 7]⟩
abbrev S1x7 : Shape := ⟨2, ![1, 7]⟩
abbrev S4000 : Shape := ⟨1, ![4000]⟩
abbrev S4000x1 : Shape := ⟨2, ![4000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x7, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x7, .f32⟩
  | .hbm, ⟨80, _⟩ => ⟨S3300000x7, .f32⟩
  | .hbm, ⟨81, _⟩ => ⟨S_, .f32⟩
  | .hbm, ⟨82, _⟩ => ⟨S100000x7, .f32⟩
  | .hbm, ⟨83, _⟩ => ⟨S3300000x1, .i32⟩
  | .hbm, ⟨84, _⟩ => ⟨S100000x7, .f32⟩
  | .hbm, ⟨85, _⟩ => ⟨S1x7, .f32⟩
  | .hbm, ⟨86, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S16x7, .f32⟩
  | .local _ .vmem, ⟨13, _⟩ => ⟨S4000x7, .f32⟩
  | .local _ .vmem, ⟨14, _⟩ => ⟨S4000x7, .f32⟩
  | .local _ .vmem, ⟨15, _⟩ => ⟨S4000x7, .f32⟩
  | .local _ .vmem, ⟨16, _⟩ => ⟨S4000x7, .f32⟩
  | .local _ .vmem, ⟨17, _⟩ => ⟨S1x7, .f32⟩
  | .local _ .vmem, ⟨18, _⟩ => ⟨S4000x7, .f32⟩
  | .local _ .vmem, ⟨19, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x7_S16x7_0_0 : ∀ a, (![0, 0] : Fin 2 → Nat) a + S16x7.size a ≤ S16x7.size a
  h_S16x7 : 0 < S16x7.numel
  inb_S4000x7_S4000x7_0_0 : ∀ a, (![0, 0] : Fin 2 → Nat) a + S4000x7.size a ≤ S4000x7.size a
  h_S4000x7 : 0 < S4000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S4000x7_S4000x7 : S4000x7.ShapeCasts S4000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4000x7 : S1x7.Broadcasts S4000x7
  reduces_S4000x7_S4000 : S4000x7.Reduces [1] S4000
  shapeCasts_S4000_S4000x1 : S4000.ShapeCasts S4000x1
  broadcasts_S4000x1_S4000x7 : S4000x1.Broadcasts S4000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x7_S4000x7_1_0_0_1_n_n_wf : DotDims.WF S4000x16 S16x7 S4000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x7.size a ≤ S100000x7.size a
  hwx2_2 : ∀ i : grid2.Coords, EltTy.bits .f32 = 32 ∨ (Rect.block (s := S100000x7) S4000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x7.size a ≤ S100000x7.size a
  hwx3_0 : ∀ i : grid3.Coords, EltTy.bits .f32 = 32 ∨ (Rect.block (s := S100000x7) S4000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x7.size a ≤ S100000x7.size a
  hwx3_2 : ∀ i : grid3.Coords, EltTy.bits .f32 = 32 ∨ (Rect.block (s := S100000x7) S4000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S4000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x7, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x7, .f32⟩
  | .hbm, ⟨99, _⟩ => ⟨S100000x7, .f32⟩
  | .hbm, ⟨100, _⟩ => ⟨S100000x7, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x7, .f32⟩
  | .hbm, ⟨106, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.HostStages.lean ====
/-
  The host stretches of the kernel's @main, read as the reference's stages. Around its four regions the kernel's @main
  runs the same host operations as the reference: the edge list split into sources and targets with the self-loops
  appended, the degrees by a scatter-add of ones, the symmetric normalisation, and after each dense layer the gather of
  source rows, their scaling, and the scatter-add into target rows. Operation by operation these are the reference's own
  terms, so a stretch's result is the reference's stage of the same name as soon as the buffers the stretch reads hold
  the stages they should. Stated for any float family: nothing here computes on floats.
-/
import proofs.«133555_j21646635172356_1_alg».proof.Proof.Gen.KernelIdeal.Frame
import proofs.«133555_j21646635172356_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStages

open Cert.KernelIdeal Cert.KernelIdeal.Gen

variable {F : FTy → Type} [FloatOps F]

/-! ## Before the first region: from the launch contents -/

section Lead
variable (m : (ℓ : Loc nD τ sig) → Buf (Elt F) ℓ) (ρ : Dev nD → PrngReg)

/-- The sources, self-loops appended. (A reshape's result is carried along an equation of two equal buffer types:
    that transport is removed before the two sides are compared.) -/
theorem lead_src (c : Dev nD) :
    W3 m ρ c (Proc.devRef .tc main_v3) = Cert.ReferenceIdeal.Read.val_main_v3 (F := F) (m ((c : Thread nD τ).loc main_arg5)) := by
  show StableHlo.after hostOps0_2 (StableHlo.after hostOps0_1 (StableHlo.after hostOps0 (W0 m ρ c))) (Proc.devRef .tc main_v3) = _
  after_results_simp
  unfold Cert.ReferenceIdeal.Read.val_main_v3 Cert.ReferenceIdeal.Read.val_main_v2 Cert.ReferenceIdeal.Read.val_main_v1 Cert.ReferenceIdeal.Read.val_main_v0
  simp only [eq_rec_constant, cast_eq, eqRec_eq_cast]
  rfl

/-- The targets, self-loops appended. -/
theorem lead_dst (c : Dev nD) :
    W3 m ρ c (Proc.devRef .tc main_v6) = Cert.ReferenceIdeal.Read.val_main_v6 (F := F) (m ((c : Thread nD τ).loc main_arg5)) := by
  show StableHlo.after hostOps0_2 (StableHlo.after hostOps0_1 (StableHlo.after hostOps0 (W0 m ρ c))) (Proc.devRef .tc main_v6) = _
  after_results_simp
  unfold Cert.ReferenceIdeal.Read.val_main_v6 Cert.ReferenceIdeal.Read.val_main_v5 Cert.ReferenceIdeal.Read.val_main_v4 Cert.ReferenceIdeal.Read.val_main_v0
  simp only [eq_rec_constant, cast_eq, eqRec_eq_cast]
  rfl

/-- The symmetric normalisation of every edge: inverse root degree of its source times that of its target. -/
theorem lead_norm (c : Dev nD) :
    W3 m ρ c (Proc.devRef .tc main_v31) = Cert.ReferenceIdeal.Read.val_main_v31 (F := F) (m ((c : Thread nD τ).loc main_arg5)) := by
  show StableHlo.after hostOps0_2 (StableHlo.after hostOps0_1 (StableHlo.after hostOps0 (W0 m ρ c))) (Proc.devRef .tc main_v31) = _
  after_results_simp
  unfold Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_6 Cert.ReferenceIdeal.Read.val_main_v25 Cert.ReferenceIdeal.Read.val_main_v24 Cert.ReferenceIdeal.Read.val_main_c_5 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4 Cert.ReferenceIdeal.Read.val_main_v18 Cert.ReferenceIdeal.Read.val_main_v17 Cert.ReferenceIdeal.Read.val_main_c Cert.ReferenceIdeal.Read.val_main_v16 Cert.ReferenceIdeal.Read.val_main_call0_v1 Cert.ReferenceIdeal.Read.val_main_call0_v0 Cert.ReferenceIdeal.Read.val_main_cst_3 Cert.ReferenceIdeal.Read.val_main_v15 Cert.ReferenceIdeal.Read.val_main_v14 Cert.ReferenceIdeal.Read.val_main_v13 Cert.ReferenceIdeal.Read.val_main_cst_2 Cert.ReferenceIdeal.Read.val_main_v12 Cert.ReferenceIdeal.Read.val_main_v11 Cert.ReferenceIdeal.Read.val_main_cst_1 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  simp only [eq_rec_constant, cast_eq, eqRec_eq_cast]
  rfl

/-- Argument 0 is written by none of the leading host operations. -/
theorem lead_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
/-- Argument 1 is written by none of the leading host operations. -/
theorem lead_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl
/-- Argument 2 is written by none of the leading host operations. -/
theorem lead_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
/-- Argument 3 is written by none of the leading host operations. -/
theorem lead_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
/-- Argument 4 is written by none of the leading host operations. -/
theorem lead_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

end Lead

/-! ## Between the first and the second region: any contents `X` -/

/-- The first aggregation: source rows of the product gathered, scaled by the normalisation, added into target rows. -/
theorem agg1_of (X : Valuation τ sig (Elt F)) (x0 : (⟨Cert.ReferenceIdeal.S100000x512, .f32⟩ : BufTy).Contents (Elt F)) (x1 : (⟨Cert.ReferenceIdeal.S512x16, .f32⟩ : BufTy).Contents (Elt F)) (x5 : (⟨Cert.ReferenceIdeal.S2x3200000, .i32⟩ : BufTy).Contents (Elt F))
    (h32 : X (Proc.devRef .tc main_v32) = Cert.ReferenceIdeal.Read.val_main_v32 (F := F) x0 x1)
    (h31 : X (Proc.devRef .tc main_v31) = Cert.ReferenceIdeal.Read.val_main_v31 (F := F) x5)
    (h3 : X (Proc.devRef .tc main_v3) = Cert.ReferenceIdeal.Read.val_main_v3 (F := F) x5)
    (h6 : X (Proc.devRef .tc main_v6) = Cert.ReferenceIdeal.Read.val_main_v6 (F := F) x5) :
    StableHlo.after hostOps1 X (Proc.devRef .tc main_v45) = Cert.ReferenceIdeal.Read.val_main_v45 (F := F) x0 x1 x5 := by
  after_results_simp
  rw [h32, h31, h3, h6]
  unfold Cert.ReferenceIdeal.Read.val_main_v45 Cert.ReferenceIdeal.Read.val_main_v44 Cert.ReferenceIdeal.Read.val_main_v43 Cert.ReferenceIdeal.Read.val_main_cst_9 Cert.ReferenceIdeal.Read.val_main_v42 Cert.ReferenceIdeal.Read.val_main_v41 Cert.ReferenceIdeal.Read.val_main_v33 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_c_8 Cert.ReferenceIdeal.Read.val_main_v35 Cert.ReferenceIdeal.Read.val_main_v34 Cert.ReferenceIdeal.Read.val_main_c_7
  simp only [eq_rec_constant, cast_eq, eqRec_eq_cast]
  rfl

/-- The first bias as a [1, 16] row: the 16 entries reshaped. -/
theorem bias1_of (X : Valuation τ sig (Elt F)) (x2 : (⟨Cert.ReferenceIdeal.S16, .f32⟩ : BufTy).Contents (Elt F)) (h2 : X (Proc.devRef .tc main_arg2) = x2) :
    StableHlo.after hostOps1 X (Proc.devRef .tc main_v46) = shapeCast S1x16 x2 shapeCasts_S16_S1x16 := by
  after_results_simp
  rw [h2]
  try simp only [eq_rec_constant, cast_eq, eqRec_eq_cast]
  rfl

theorem keep1_main_v3 (X : Valuation τ sig (Elt F)) :
    StableHlo.after hostOps1 X (Proc.devRef .tc main_v3) = X (Proc.devRef .tc main_v3) := by
  after_results_simp
theorem keep1_main_v6 (X : Valuation τ sig (Elt F)) :
    StableHlo.after hostOps1 X (Proc.devRef .tc main_v6) = X (Proc.devRef .tc main_v6) := by
  after_results_simp
theorem keep1_main_v31 (X : Valuation τ sig (Elt F)) :
    StableHlo.after hostOps1 X (Proc.devRef .tc main_v31) = X (Proc.devRef .tc main_v31) := by
  after_results_simp
theorem keep1_main_arg3 (X : Valuation τ sig (Elt F)) :
    StableHlo.after hostOps1 X (Proc.devRef .tc main_arg3) = X (Proc.devRef .tc main_arg3) := by
  after_results_simp
theorem keep1_main_arg4 (X : Valuation τ sig (Elt F)) :
    StableHlo.after hostOps1 X (Proc.devRef .tc main_arg4) = X (Proc.devRef .tc main_arg4) := by
  after_results_simp

/-! ## Between the third and the fourth region: any contents `X` -/

/-- The second aggregation, on the second product. -/
theorem agg2_of (X : Valuation τ sig (Elt F)) (x0 : (⟨Cert.ReferenceIdeal.S100000x512, .f32⟩ : BufTy).Contents (Elt F)) (x1 : (⟨Cert.ReferenceIdeal.S512x16, .f32⟩ : BufTy).Contents (Elt F)) (x2 : (⟨Cert.ReferenceIdeal.S16, .f32⟩ : BufTy).Contents (Elt F))
    (x3 : (⟨Cert.ReferenceIdeal.S16x7, .f32⟩ : BufTy).Contents (Elt F)) (x5 : (⟨Cert.ReferenceIdeal.S2x3200000, .i32⟩ : BufTy).Contents (Elt F))
    (h48 : X (Proc.devRef .tc main_v48) = Cert.ReferenceIdeal.Read.val_main_v50 (F := F) x0 x1 x2 x3 x5)
    (h31 : X (Proc.devRef .tc main_v31) = Cert.ReferenceIdeal.Read.val_main_v31 (F := F) x5)
    (h3 : X (Proc.devRef .tc main_v3) = Cert.ReferenceIdeal.Read.val_main_v3 (F := F) x5)
    (h6 : X (Proc.devRef .tc main_v6) = Cert.ReferenceIdeal.Read.val_main_v6 (F := F) x5) :
    StableHlo.after hostOps3 X (Proc.devRef .tc main_v61) = Cert.ReferenceIdeal.Read.val_main_v63 (F := F) x0 x1 x2 x3 x5 := by
  after_results_simp
  rw [h48, h31, h3, h6]
  unfold Cert.ReferenceIdeal.Read.val_main_v63 Cert.ReferenceIdeal.Read.val_main_v62 Cert.ReferenceIdeal.Read.val_main_v61 Cert.ReferenceIdeal.Read.val_main_cst_12 Cert.ReferenceIdeal.Read.val_main_v60 Cert.ReferenceIdeal.Read.val_main_v59 Cert.ReferenceIdeal.Read.val_main_v51 Cert.ReferenceIdeal.Read.val_main_v58 Cert.ReferenceIdeal.Read.val_main_v57 Cert.ReferenceIdeal.Read.val_main_v56 Cert.ReferenceIdeal.Read.val_main_v55 Cert.ReferenceIdeal.Read.val_main_v54 Cert.ReferenceIdeal.Read.val_main_c_11 Cert.ReferenceIdeal.Read.val_main_v53 Cert.ReferenceIdeal.Read.val_main_v52 Cert.ReferenceIdeal.Read.val_main_c_10
  simp only [eq_rec_constant, cast_eq, eqRec_eq_cast]
  rfl

/-- The second bias as a [1, 7] row: the 7 entries reshaped. -/
theorem bias2_of (X : Valuation τ sig (Elt F)) (x4 : (⟨Cert.ReferenceIdeal.S7, .f32⟩ : BufTy).Contents (Elt F)) (h4 : X (Proc.devRef .tc main_arg4) = x4) :
    StableHlo.after hostOps3 X (Proc.devRef .tc main_v62) = shapeCast S1x7 x4 shapeCasts_S7_S1x7 := by
  after_results_simp
  rw [h4]
  try simp only [eq_rec_constant, cast_eq, eqRec_eq_cast]
  rfl

end Cert.KernelIdeal.HostStages

end
-- ==== Proof.Dense1.lean ====
/-
  The first dense layer's product. Region 0 of @main multiplies the node features, 100000 rows of 512, by the 512 × 16
  weight matrix, 4000 rows at a grid point: point t loads rows 4000 t … 4000 t + 3999 and the whole weight matrix,
  rounds both to bf16 (the identity on the extended reals), and stores their product into rows 4000 t … of the result.
  An entry of a block product is a sum over the 512 contracted coordinates of a row entry times a column entry, and
  the row of the block is a row of the array, so every entry of the result array is the full product's entry: the
  array the region leaves is the host's dot_general of the two arrays as the region found them.
-/
import proofs.«133555_j21646635172356_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense1

open Cert.KernelIdeal Cert.KernelIdeal.Gen

/-! ## The block product at an entry -/

/-- Row coordinate of the left block kept, column coordinate the contracted one. -/
theorem lhsAx0 (j : S4000x16.Idx) (q : dot_S4000x512_S512x16_S4000x16_1_0_0_1_n_n.contr.Idx) :
    (dot_S4000x512_S512x16_S4000x16_1_0_0_1_n_n.lhsIdx j q 0).val = (j 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhsAx1 (j : S4000x16.Idx) (q : dot_S4000x512_S512x16_S4000x16_1_0_0_1_n_n.contr.Idx) :
    (dot_S4000x512_S512x16_S4000x16_1_0_0_1_n_n.lhsIdx j q 1).val = (q ⟨0, by decide⟩).val :=
  dot_S4000x512_S512x16_S4000x16_1_0_0_1_n_n.lhsIdx_val_of_single rfl j q
theorem rhsAx0 (j : S4000x16.Idx) (q : dot_S4000x512_S512x16_S4000x16_1_0_0_1_n_n.contr.Idx) :
    (dot_S4000x512_S512x16_S4000x16_1_0_0_1_n_n.rhsIdx j q 0).val = (q ⟨0, by decide⟩).val :=
  dot_S4000x512_S512x16_S4000x16_1_0_0_1_n_n.rhsIdx_val_of_single rfl j q
theorem rhsAx1 (j : S4000x16.Idx) (q : dot_S4000x512_S512x16_S4000x16_1_0_0_1_n_n.contr.Idx) :
    (dot_S4000x512_S512x16_S4000x16_1_0_0_1_n_n.rhsIdx j q 1).val = (j 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- Entry (r, k) of the row block and entry (k, c) of the weight matrix, for the output entry j = (r, c). -/
abbrev rowEntry (j : S4000x16.Idx) (k : Fin 512) : S4000x512.Idx := fun a => match a with
  | ⟨0, _⟩ => ⟨(j 0).val, (j 0).isLt⟩
  | ⟨1, _⟩ => ⟨k.val, k.isLt⟩
abbrev colEntry (j : S4000x16.Idx) (k : Fin 512) : S512x16.Idx := fun a => match a with
  | ⟨0, _⟩ => ⟨k.val, k.isLt⟩
  | ⟨1, _⟩ => ⟨(j 1).val, (j 1).isLt⟩

/-- What the body stores, at an entry: the sum over the contracted coordinate of the products (the zero accumulator adds
    nothing, the roundings to bf16 are the identity). -/
theorem stored_apply (x0 : Vec Ideal S4000x512 .f32) (x1 : Vec Ideal S512x16 .f32) (j : S4000x16.Idx) :
    k0_pay1 (F := Ideal) x0 x1 j = ∑ k : Fin 512, x0 (rowEntry j k) * x1 (colEntry j k) := by
  unfold k0_pay1
  simp only [matmul, shapeCast_self]
  rw [Ideal.matmul_constant_zero_apply, ← Equiv.sum_comp (ValueIdx.contrEquiv1 dot_S4000x512_S512x16_S4000x16_1_0_0_1_n_n 512 rfl rfl).symm]
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx j ((ValueIdx.contrEquiv1 dot_S4000x512_S512x16_S4000x16_1_0_0_1_n_n 512 rfl rfl).symm k) = rowEntry j k := funext fun a => Fin.ext (by
    match a with
    | ⟨0, _⟩ => exact lhsAx0 _ _
    | ⟨1, _⟩ => exact (lhsAx1 _ _).trans hk)
  have er : dot_S4000x512_S512x16_S4000x16_1_0_0_1_n_n.rhsIdx j ((ValueIdx.contrEquiv1 dot_S4000x512_S512x16_S4000x16_1_0_0_1_n_n 512 rfl rfl).symm k) = colEntry j k := funext fun a => Fin.ext (by
    match a with
    | ⟨0, _⟩ => exact (rhsAx0 _ _).trans hk
    | ⟨1, _⟩ => exact rhsAx1 _ _)
  rw [el, er]
  rfl

/-! ## From the blocks to the array -/

/-- Entry (r, k) of the feature array and entry (k, c) of the weight matrix, for the result entry i = (r, c). -/
abbrev featEntry (i : S100000x16.Idx) (k : Fin 512) : S100000x512.Idx := fun a => match a with
  | ⟨0, _⟩ => ⟨(i 0).val, (i 0).isLt⟩
  | ⟨1, _⟩ => ⟨k.val, k.isLt⟩
abbrev wtEntry (i : S100000x16.Idx) (k : Fin 512) : S512x16.Idx := fun a => match a with
  | ⟨0, _⟩ => ⟨k.val, k.isLt⟩
  | ⟨1, _⟩ => ⟨(i 1).val, (i 1).isLt⟩

/-- The full product: entry (r, c) is the sum over k of x (r, k) · w (k, c). -/
def product (x : Vec Ideal S100000x512 .f32) (w : Vec Ideal S512x16 .f32) : Vec Ideal S100000x16 .f32 :=
  fun i => ∑ k : Fin 512, x (featEntry i k) * w (wtEntry i k)

theorem hz : (![0, 0] : Fin 2 → Nat) = fun _ => 0 := funext fun a => by fin_cases a <;> rfl

/-- The printed index maps over the grid: the row blocks of the features and of the result move together, block t at
    point t; the weight matrix is one block. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the full product of the arrays as the region found them. -/
theorem written (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  funext j
  obtain ⟨e00, e01, e10, e11, e20, e21⟩ := blockIdx t
  show k0_pay1 (F := Ideal) (iblk0 V c 0 t) (iblk0 V c 1 t) ((win0 2).xinj (grid0.coords t) j)
      = product (V c main_arg0) (V c main_arg1) (((cfg0.win 2).blk t).view.emb j)
  refine (stored_apply (iblk0 V c 0 t) (iblk0 V c 1 t) ((win0 2).xinj (grid0.coords t) j)).trans ?_
  refine Finset.sum_congr rfl fun k _ => ?_
  have h0 : (iblk0 V c 0 t : Vec Ideal S4000x512 .f32) (rowEntry ((win0 2).xinj (grid0.coords t) j) k)
      = V c main_arg0 (featEntry (((cfg0.win 2).blk t).view.emb j) k) := by
    show V c main_arg0 (((cfg0.win 0).blk t).view.emb (rowEntry ((win0 2).xinj (grid0.coords t) j) k)) = _
    congr 1
    funext a; apply Fin.ext
    match a with
    | ⟨0, _⟩ => show win0_0.index t (0 : Fin 2) * 4000 + 1 * (j 0).val = win0_2.index t (0 : Fin 2) * 4000 + 1 * (j 0).val; rw [e00, e20]
    | ⟨1, _⟩ => show win0_0.index t (1 : Fin 2) * 512 + 1 * k.val = k.val; rw [e01]; omega
  have h1 : (iblk0 V c 1 t : Vec Ideal S512x16 .f32) (colEntry ((win0 2).xinj (grid0.coords t) j) k)
      = V c main_arg1 (wtEntry (((cfg0.win 2).blk t).view.emb j) k) := by
    show V c main_arg1 (((cfg0.win 1).blk t).view.emb (colEntry ((win0 2).xinj (grid0.coords t) j) k)) = _
    congr 1
    funext a; apply Fin.ext
    match a with
    | ⟨0, _⟩ => show win0_1.index t (0 : Fin 2) * 512 + 1 * k.val = k.val; rw [e10]; omega
    | ⟨1, _⟩ => show win0_1.index t (1 : Fin 2) * 16 + 1 * (j 1).val = win0_2.index t (1 : Fin 2) * 16 + 1 * (j 1).val; rw [e11, e21]
  rw [h0, h1]

/-- An index of the result array lies in point t's block iff, on each axis, its coordinate lies in the block's range. -/
theorem mem_block (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- The 25 row blocks tile the result (row r lies in block r / 4000), so the array the region leaves is the full product
    of the two arrays it found. -/
theorem array (c : Dev nD) : (dat0 V c).arrAt 2 cfg0.N = product (V c main_arg0) (V c main_arg1) :=
  (dat0 V c).arrAt_eq_of_cover 2 (product (V c main_arg0) (V c main_arg1)) (fun t _ => written V c t) fun i => by
    have hi0 : (i 0).val < 100000 := (i 0).isLt
    have hi1 : (i 1).val < 16 := (i 1).isLt
    have hN : cfg0.N = 25 := N_0
    refine ⟨⟨(i 0).val / 4000, by rw [hN]; omega⟩, flush0_2 _, ?_⟩
    rw [mem_block]
    obtain ⟨-, -, -, -, e20, e21⟩ := blockIdx ⟨(i 0).val / 4000, by rw [hN]; omega⟩
    intro a
    match a with
    | ⟨0, _⟩ =>
      show win0_2.index _ (0 : Fin 2) * 4000 ≤ (i 0).val ∧ (i 0).val < win0_2.index _ (0 : Fin 2) * 4000 + 4000
      rw [e20]; simp only; omega
    | ⟨1, _⟩ =>
      show win0_2.index _ (1 : Fin 2) * 16 ≤ (i 1).val ∧ (i 1).val < win0_2.index _ (1 : Fin 2) * 16 + 16
      rw [e21]; omega

end Cert.KernelIdeal.Dense1

end
-- ==== Proof.Dense2.lean ====
/-
  The second dense layer's product. Region 2 of @main multiplies the hidden activations, 100000 rows of 16, by the 16 × 7
  weight matrix, 4000 rows at a grid point: point t loads rows 4000 t … 4000 t + 3999 and the whole weight matrix,
  rounds both to bf16 (the identity on the extended reals), and stores their product into rows 4000 t … of the result.
  An entry of a block product is a sum over the 16 contracted coordinates of a row entry times a column entry, and
  the row of the block is a row of the array, so every entry of the result array is the full product's entry: the
  array the region leaves is the host's dot_general of the two arrays as the region found them.
-/
import proofs.«133555_j21646635172356_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense2

open Cert.KernelIdeal Cert.KernelIdeal.Gen

/-! ## The block product at an entry -/

/-- Row coordinate of the left block kept, column coordinate the contracted one. -/
theorem lhsAx0 (j : S4000x7.Idx) (q : dot_S4000x16_S16x7_S4000x7_1_0_0_1_n_n.contr.Idx) :
    (dot_S4000x16_S16x7_S4000x7_1_0_0_1_n_n.lhsIdx j q 0).val = (j 0).val := by
  unfold DotDims.lhsIdx
  rw [dif_neg (show ¬(0 : Fin S4000x16.rank) ∈ dot_S4000x16_S16x7_S4000x7_1_0_0_1_n_n.lhsBatch by decide), dif_pos (show (0 : Fin S4000x16.rank) ∈ dot_S4000x16_S16x7_S4000x7_1_0_0_1_n_n.lhsNonContracting by decide)]
  rfl
theorem lhsAx1 (j : S4000x7.Idx) (q : dot_S4000x16_S16x7_S4000x7_1_0_0_1_n_n.contr.Idx) :
    (dot_S4000x16_S16x7_S4000x7_1_0_0_1_n_n.lhsIdx j q 1).val = (q ⟨0, by decide⟩).val :=
  dot_S4000x16_S16x7_S4000x7_1_0_0_1_n_n.lhsIdx_val_of_single rfl j q
theorem rhsAx0 (j : S4000x7.Idx) (q : dot_S4000x16_S16x7_S4000x7_1_0_0_1_n_n.contr.Idx) :
    (dot_S4000x16_S16x7_S4000x7_1_0_0_1_n_n.rhsIdx j q 0).val = (q ⟨0, by decide⟩).val :=
  dot_S4000x16_S16x7_S4000x7_1_0_0_1_n_n.rhsIdx_val_of_single rfl j q
theorem rhsAx1 (j : S4000x7.Idx) (q : dot_S4000x16_S16x7_S4000x7_1_0_0_1_n_n.contr.Idx) :
    (dot_S4000x16_S16x7_S4000x7_1_0_0_1_n_n.rhsIdx j q 1).val = (j 1).val := by
  unfold DotDims.rhsIdx
  rw [dif_neg (show ¬(1 : Fin S16x7.rank) ∈ dot_S4000x16_S16x7_S4000x7_1_0_0_1_n_n.rhsBatch by decide), dif_pos (show (1 : Fin S16x7.rank) ∈ dot_S4000x16_S16x7_S4000x7_1_0_0_1_n_n.rhsNonContracting by decide)]
  rfl

/-- Entry (r, k) of the row block and entry (k, c) of the weight matrix, for the output entry j = (r, c). -/
abbrev rowEntry (j : S4000x7.Idx) (k : Fin 16) : S4000x16.Idx := fun a => match a with
  | ⟨0, _⟩ => ⟨(j 0).val, (j 0).isLt⟩
  | ⟨1, _⟩ => ⟨k.val, k.isLt⟩
abbrev colEntry (j : S4000x7.Idx) (k : Fin 16) : S16x7.Idx := fun a => match a with
  | ⟨0, _⟩ => ⟨k.val, k.isLt⟩
  | ⟨1, _⟩ => ⟨(j 1).val, (j 1).isLt⟩

/-- What the body stores, at an entry: the sum over the contracted coordinate of the products (the zero accumulator adds
    nothing, the roundings to bf16 are the identity). -/
theorem stored_apply (x0 : Vec Ideal S4000x16 .f32) (x1 : Vec Ideal S16x7 .f32) (j : S4000x7.Idx) :
    k2_pay1 (F := Ideal) x0 x1 j = ∑ k : Fin 16, x0 (rowEntry j k) * x1 (colEntry j k) := by
  unfold k2_pay1
  simp only [matmul, shapeCast_self]
  rw [Ideal.matmul_constant_zero_apply, ← Equiv.sum_comp (ValueIdx.contrEquiv1 dot_S4000x16_S16x7_S4000x7_1_0_0_1_n_n 16 rfl rfl).symm]
  refine Finset.sum_congr rfl fun k _ => ?_
  have hk := ValueIdx.contrEquiv1_symm_val dot_S4000x16_S16x7_S4000x7_1_0_0_1_n_n 16 rfl rfl k
  have el : dot_S4000x16_S16x7_S4000x7_1_0_0_1_n_n.lhsIdx j ((ValueIdx.contrEquiv1 dot_S4000x16_S16x7_S4000x7_1_0_0_1_n_n 16 rfl rfl).symm k) = rowEntry j k := funext fun a => Fin.ext (by
    match a with
    | ⟨0, _⟩ => exact lhsAx0 _ _
    | ⟨1, _⟩ => exact (lhsAx1 _ _).trans hk)
  have er : dot_S4000x16_S16x7_S4000x7_1_0_0_1_n_n.rhsIdx j ((ValueIdx.contrEquiv1 dot_S4000x16_S16x7_S4000x7_1_0_0_1_n_n 16 rfl rfl).symm k) = colEntry j k := funext fun a => Fin.ext (by
    match a with
    | ⟨0, _⟩ => exact (rhsAx0 _ _).trans hk
    | ⟨1, _⟩ => exact rhsAx1 _ _)
  rw [el, er]
  rfl

/-! ## From the blocks to the array -/

/-- Entry (r, k) of the activation array and entry (k, c) of the weight matrix, for the result entry i = (r, c). -/
abbrev featEntry (i : S100000x7.Idx) (k : Fin 16) : S100000x16.Idx := fun a => match a with
  | ⟨0, _⟩ => ⟨(i 0).val, (i 0).isLt⟩
  | ⟨1, _⟩ => ⟨k.val, k.isLt⟩
abbrev wtEntry (i : S100000x7.Idx) (k : Fin 16) : S16x7.Idx := fun a => match a with
  | ⟨0, _⟩ => ⟨k.val, k.isLt⟩
  | ⟨1, _⟩ => ⟨(i 1).val, (i 1).isLt⟩

/-- The full product: entry (r, c) is the sum over k of x (r, k) · w (k, c). -/
def product (x : Vec Ideal S100000x16 .f32) (w : Vec Ideal S16x7 .f32) : Vec Ideal S100000x7 .f32 :=
  fun i => ∑ k : Fin 16, x (featEntry i k) * w (wtEntry i k)

theorem hz : (![0, 0] : Fin 2 → Nat) = fun _ => 0 := funext fun a => by fin_cases a <;> rfl

/-- The printed index maps over the grid: the row blocks of the activations and of the result move together, block t at
    point t; the weight matrix is one block. -/
theorem blockIdx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the full product of the arrays as the region found them. -/
theorem written (c : Dev nD) (t : Fin cfg2.N) :
    (dat2 V c).flushed 2 t = ((cfg2.win 2).blk t).view.read (Elt Ideal) (product (V c main_v47) (V c main_arg3)) := by
  show (cfg2.win 2).cut (grid2.coords t) ((dat2 V c).after 2 t) = _
  rw [after2_2]
  unfold out2_2
  rw [View.canon_unit_zero hz]
  simp only [View.ld_unit_zero (S := S4000x16) hz, View.ld_unit_zero (S := S16x7) hz]
  funext j
  obtain ⟨e00, e01, e10, e11, e20, e21⟩ := blockIdx t
  show k2_pay1 (F := Ideal) (iblk2 V c 0 t) (iblk2 V c 1 t) ((win2 2).xinj (grid2.coords t) j)
      = product (V c main_v47) (V c main_arg3) (((cfg2.win 2).blk t).view.emb j)
  refine (stored_apply (iblk2 V c 0 t) (iblk2 V c 1 t) ((win2 2).xinj (grid2.coords t) j)).trans ?_
  refine Finset.sum_congr rfl fun k _ => ?_
  have h0 : (iblk2 V c 0 t : Vec Ideal S4000x16 .f32) (rowEntry ((win2 2).xinj (grid2.coords t) j) k)
      = V c main_v47 (featEntry (((cfg2.win 2).blk t).view.emb j) k) := by
    show V c main_v47 (((cfg2.win 0).blk t).view.emb (rowEntry ((win2 2).xinj (grid2.coords t) j) k)) = _
    congr 1
    funext a; apply Fin.ext
    match a with
    | ⟨0, _⟩ => show win2_0.index t (0 : Fin 2) * 4000 + 1 * (j 0).val = win2_2.index t (0 : Fin 2) * 4000 + 1 * (j 0).val; rw [e00, e20]
    | ⟨1, _⟩ => show win2_0.index t (1 : Fin 2) * 16 + 1 * k.val = k.val; rw [e01]; omega
  have h1 : (iblk2 V c 1 t : Vec Ideal S16x7 .f32) (colEntry ((win2 2).xinj (grid2.coords t) j) k)
      = V c main_arg3 (wtEntry (((cfg2.win 2).blk t).view.emb j) k) := by
    show V c main_arg3 (((cfg2.win 1).blk t).view.emb (colEntry ((win2 2).xinj (grid2.coords t) j) k)) = _
    congr 1
    funext a; apply Fin.ext
    match a with
    | ⟨0, _⟩ => show win2_1.index t (0 : Fin 2) * 16 + 1 * k.val = k.val; rw [e10]; omega
    | ⟨1, _⟩ => show win2_1.index t (1 : Fin 2) * 7 + 1 * (j 1).val = win2_2.index t (1 : Fin 2) * 7 + 1 * (j 1).val; rw [e11, e21]
  rw [h0, h1]

/-- An index of the result array lies in point t's block iff, on each axis, its coordinate lies in the block's range. -/
theorem mem_block (t : Fin cfg2.N) (i : S100000x7.Idx) :
    i ∈ ((cfg2.win 2).blk t).view.set ↔ ∀ a : Fin 2, win2_2.index t a * S4000x7.size a ≤ (i a).val ∧ (i a).val < win2_2.index t a * S4000x7.size a + S4000x7.size a := by
  show i ∈ ((View.whole main_v48).slice (win2_2.rect t)).set ↔ _
  rw [View.set_slice_whole, Rect.mem_set_unit]
  exact Iff.rfl

/-- The 25 row blocks tile the result (row r lies in block r / 4000), so the array the region leaves is the full product
    of the two arrays it found. -/
theorem array (c : Dev nD) : (dat2 V c).arrAt 2 cfg2.N = product (V c main_v47) (V c main_arg3) :=
  (dat2 V c).arrAt_eq_of_cover 2 (product (V c main_v47) (V c main_arg3)) (fun t _ => written V c t) fun i => by
    have hi0 : (i 0).val < 100000 := (i 0).isLt
    have hi1 : (i 1).val < 7 := (i 1).isLt
    have hN : cfg2.N = 25 := N_2
    refine ⟨⟨(i 0).val / 4000, by rw [hN]; omega⟩, flush2_2 _, ?_⟩
    rw [mem_block]
    obtain ⟨-, -, -, -, e20, e21⟩ := blockIdx ⟨(i 0).val / 4000, by rw [hN]; omega⟩
    intro a
    match a with
    | ⟨0, _⟩ =>
      show win2_2.index _ (0 : Fin 2) * 4000 ≤ (i 0).val ∧ (i 0).val < win2_2.index _ (0 : Fin 2) * 4000 + 4000
      rw [e20]; simp only; omega
    | ⟨1, _⟩ =>
      show win2_2.index _ (1 : Fin 2) * 7 ≤ (i 1).val ∧ (i 1).val < win2_2.index _ (1 : Fin 2) * 7 + 7
      rw [e21]; omega

end Cert.KernelIdeal.Dense2

end
-- ==== Proof.BiasRelu.lean ====
/-
  The first layer's bias and rectifier. Region 1 of @main takes the aggregated activations, 100000 rows of 16, and the
  bias as one row of 16, 4000 rows at a grid point: point t loads rows 4000 t … 4000 t + 3999 and the bias row, adds the
  bias entry of its column to every entry, and keeps the larger of that sum and zero. Nothing crosses rows or columns,
  so every entry of the array the region leaves is max (a (r, c) + b (0, c), 0) of the arrays as the region found them.
-/
import proofs.«133555_j21646635172356_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Rectify

open Cert.KernelIdeal Cert.KernelIdeal.Gen

/-! ## The stored value at an entry -/

/-- The bias row's entry over column c of a block entry j = (r, c). -/
abbrev biasBlk (j : S4000x16.Idx) : S1x16.Idx := fun a => match a with
  | ⟨0, _⟩ => ⟨0, Nat.zero_lt_one⟩
  | ⟨1, _⟩ => ⟨(j 1).val, (j 1).isLt⟩

/-- What the body stores, at an entry: the entry plus its column's bias, or zero if that is larger. -/
theorem stored_apply (x0 : Vec Ideal S4000x16 .f32) (x1 : Vec Ideal S1x16 .f32) (j : S4000x16.Idx) :
    k1_pay1 (F := Ideal) x0 x1 j = max (x0 j + x1 (biasBlk j)) (FloatOps.ofBits (F := Ideal) .f32 0x00000000#32) := by
  unfold k1_pay1
  simp only [shapeCast_self]
  show max (x0 j + broadcastTo S4000x16 x1 _ j) _ = _
  rw [broadcastTo_apply x1 _ j (biasBlk j) (fun a => by
    match a with
    | ⟨0, _⟩ => rfl
    | ⟨1, _⟩ => rfl)]
  rfl

/-! ## From the blocks to the array -/

/-- The bias row's entry over column c of an array entry i = (r, c). -/
abbrev biasEntry (i : S100000x16.Idx) : S1x16.Idx := fun a => match a with
  | ⟨0, _⟩ => ⟨0, Nat.zero_lt_one⟩
  | ⟨1, _⟩ => ⟨(i 1).val, (i 1).isLt⟩

/-- Bias added along the columns, then the rectifier, entry by entry. -/
def biasRelu (a : Vec Ideal S100000x16 .f32) (b : Vec Ideal S1x16 .f32) : Vec Ideal S100000x16 .f32 :=
  fun i => max (a i + b (biasEntry i)) (FloatOps.ofBits (F := Ideal) .f32 0x00000000#32)

theorem hz : (![0, 0] : Fin 2 → Nat) = fun _ => 0 := funext fun a => by fin_cases a <;> rfl

/-- The printed index maps over the grid: the row blocks of the input and of the result move together, block t at
    point t; the bias row is one block. -/
theorem blockIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the rectified, biased array. -/
theorem written (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S4000x16) hz, View.ld_unit_zero (S := S1x16) hz]
  funext j
  obtain ⟨e00, e01, e10, e11, e20, e21⟩ := blockIdx t
  show k1_pay1 (F := Ideal) (iblk1 V c 0 t) (iblk1 V c 1 t) ((win1 2).xinj (grid1.coords t) j)
      = biasRelu (V c main_v45) (V c main_v46) (((cfg1.win 2).blk t).view.emb j)
  refine (stored_apply (iblk1 V c 0 t) (iblk1 V c 1 t) ((win1 2).xinj (grid1.coords t) j)).trans ?_
  have h0 : (iblk1 V c 0 t : Vec Ideal S4000x16 .f32) ((win1 2).xinj (grid1.coords t) j)
      = V c main_v45 (((cfg1.win 2).blk t).view.emb j) := by
    show V c main_v45 (((cfg1.win 0).blk t).view.emb ((win1 2).xinj (grid1.coords t) j)) = _
    congr 1
  have h1 : (iblk1 V c 1 t : Vec Ideal S1x16 .f32) (biasBlk ((win1 2).xinj (grid1.coords t) j))
      = V c main_v46 (biasEntry (((cfg1.win 2).blk t).view.emb j)) := by
    show V c main_v46 (((cfg1.win 1).blk t).view.emb (biasBlk ((win1 2).xinj (grid1.coords t) j))) = _
    congr 1
    funext a; apply Fin.ext
    match a with
    | ⟨0, _⟩ => show win1_1.index t (0 : Fin 2) * 1 + 1 * 0 = 0; rw [e10]
    | ⟨1, _⟩ => show win1_1.index t (1 : Fin 2) * 16 + 1 * (j 1).val = win1_2.index t (1 : Fin 2) * 16 + 1 * (j 1).val; rw [e11, e21]
  rw [h0, h1]
  rfl

/-- An index of the result array lies in point t's block iff, on each axis, its coordinate lies in the block's range. -/
theorem mem_block (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v47).slice (win1_2.rect t)).set ↔ _
  rw [View.set_slice_whole, Rect.mem_set_unit]
  exact Iff.rfl

/-- The 25 row blocks tile the result (row r lies in block r / 4000), so the array the region leaves is the rectified,
    biased input. -/
theorem array (c : Dev nD) : (dat1 V c).arrAt 2 cfg1.N = biasRelu (V c main_v45) (V c main_v46) :=
  (dat1 V c).arrAt_eq_of_cover 2 (biasRelu (V c main_v45) (V c main_v46)) (fun t _ => written V c t) fun i => by
    have hi0 : (i 0).val < 100000 := (i 0).isLt
    have hi1 : (i 1).val < 16 := (i 1).isLt
    have hN : cfg1.N = 25 := N_1
    refine ⟨⟨(i 0).val / 4000, by rw [hN]; omega⟩, flush1_2 _, ?_⟩
    rw [mem_block]
    obtain ⟨-, -, -, -, e20, e21⟩ := blockIdx ⟨(i 0).val / 4000, by rw [hN]; omega⟩
    intro a
    match a with
    | ⟨0, _⟩ =>
      show win1_2.index _ (0 : Fin 2) * 4000 ≤ (i 0).val ∧ (i 0).val < win1_2.index _ (0 : Fin 2) * 4000 + 4000
      rw [e20]; simp only; omega
    | ⟨1, _⟩ =>
      show win1_2.index _ (1 : Fin 2) * 16 ≤ (i 1).val ∧ (i 1).val < win1_2.index _ (1 : Fin 2) * 16 + 16
      rw [e21]; omega

end Cert.KernelIdeal.Rectify

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.LibRowMax.lean ====
/-
  A row's maximum at an index. A maximum along the last axis of an `[a, n]` array, taken from a starting value, is an
  `[a]` array whose entry at row `r` is the fold of `max` from that value over the row's `n` entries, in whatever
  order: `max` on the extended reals is commutative and associative.
-/
import proofs.«133555_j21646635172356_1_alg».proof.Proof.LibColumn
import Mathlib.Data.Finset.Fold

noncomputable section

open scoped BigOperators

namespace Cert.LibRowMax

open Idealize.ShloMosaic Idealize.ShloMosaic.ValueIdx

/-- At the extended reals a lane maximum along the last axis of an `[a, n]` array, from the accumulator word's value,
    is at row `r` the fold of `max` from that value over the row's `n` entries. -/
theorem multiReduction_maximumf_last_apply {a n : ℕ} (src : FVec Ideal ⟨2, ![a, n]⟩ .f32) (acc : BitVec 32)
    (h : (⟨2, ![a, n]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin n)).fold max (FloatOps.ofBits (F := Ideal) .f32 acc) (fun k => src (ix2 r k)) := by
  refine (Ideal.multiReduction_maximumf_single src acc h hφ hacc (ix1 r)).trans ?_
  show Finset.fold max _ (src ∘ h.lift (ix1 r)) Finset.univ = Finset.fold max _ (fun k => src (ix2 r k)) Finset.univ
  congr 1
  funext k
  exact congrArg src (Cert.LibColumn.lift_last_ix1 h r k)

/-- A value already below a fold of `max` that starts from it changes nothing when joined in again. -/
theorem max_fold_max_self {ι : Type} (s : Finset ι) (b : EReal) (f : ι → EReal) :
    max b (s.fold max b f) = s.fold max b f :=
  max_eq_right ((Finset.le_fold_max b).mpr (Or.inl le_rfl))

end Cert.LibRowMax

end
-- ==== Proof.LogSoftmax.lean ====
/-
  The second layer's bias and log-softmax. Region 3 of @main takes the aggregated class scores, 100000 rows of 7, and
  the bias as one row of 7, 4000 rows at a grid point. Within a row: add the bias entry of each column, take the row's
  largest entry (a fold of max from −∞), subtract it from every entry, and subtract from each shifted entry the logarithm
  of the sum of the exponentials of the shifted row. Nothing crosses rows, so every row of the array the region leaves is
  that function of the same row of the arrays as the region found them.
-/
import proofs.«133555_j21646635172356_1_alg».proof.Proof.Gen.KernelIdeal.Frame
import proofs.«133555_j21646635172356_1_alg».proof.Proof.LibRowMax
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Classify

open Cert.KernelIdeal Cert.KernelIdeal.Gen

/-! ## One row -/

/-- Log-softmax of one row of seven extended reals, at column q: the entry less the row's top, less the logarithm of the
    sum of the exponentials of the row so shifted. The top is the fold of max from the value of the word 0xFF800000. -/
def rowLSM (z : Fin 7 → EReal) (q : Fin 7) : EReal :=
  (z q - (Finset.univ : Finset (Fin 7)).fold max (FloatOps.ofBits (F := Ideal) .f32 0xFF800000#32) z)
    - Ideal.log (∑ k : Fin 7, Ideal.exp (z k - (Finset.univ : Finset (Fin 7)).fold max (FloatOps.ofBits (F := Ideal) .f32 0xFF800000#32) z))

/-! ## The stored value at an entry -/

/-- What the body stores, at entry (p, q) of the block: `rowLSM` of row p's biased entries, at q. -/
theorem stored_apply (x0 : Vec Ideal S4000x7 .f32) (x1 : Vec Ideal S1x7 .f32) (p : Fin 4000) (q : Fin 7) :
    k3_pay1 (F := Ideal) x0 x1 (ix2 p q) = rowLSM (fun k => x0 (ix2 p k) + x1 (ix2 (0 : Fin 1) k)) q := by
  unfold k3_pay1
  simp only [shapeCast_self]
  -- the biased block, entry by entry: the bias row is spread down the rows
  have hZ : ∀ k : Fin 7, (addf (F := Ideal) x0 (broadcastTo S4000x7 x1 broadcasts_S1x7_S4000x7) : FVec Ideal S4000x7 .f32) (ix2 p k)
      = x0 (ix2 p k) + x1 (ix2 (0 : Fin 1) k) := fun k => by
    show x0 (ix2 p k) + broadcastTo S4000x7 x1 _ (ix2 p k) = _
    rw [broadcastTo_apply x1 _ (ix2 p k) (ix2 (0 : Fin 1) k) (fun a => by
      match a with
      | ⟨0, _⟩ => rfl
      | ⟨1, _⟩ => rfl)]
  generalize (addf (F := Ideal) x0 (broadcastTo S4000x7 x1 broadcasts_S1x7_S4000x7) : FVec Ideal S4000x7 .f32) = Z at hZ ⊢
  -- each column read at its row; the row's top and the row's sum as a fold and a sum over the seven columns
  have hM : multiReduction .maximumf [1] S4000 Z 0xFF800000#32 reduces_S4000x7_S4000 (.inl rfl) rfl (ix1 p)
      = (Finset.univ : Finset (Fin 7)).fold max (FloatOps.ofBits (F := Ideal) .f32 0xFF800000#32) (fun k => Z (ix2 p k)) :=
    Cert.LibRowMax.multiReduction_maximumf_last_apply Z 0xFF800000#32 reduces_S4000x7_S4000 (.inl rfl) rfl p
  have hS : ∀ Y : FVec Ideal S4000x7 .f32,
      multiReduction .add [1] S4000 Y 0x00000000#32 reduces_S4000x7_S4000 (.inl rfl) rfl (ix1 p) = ∑ k : Fin 7, Y (ix2 p k) :=
    fun Y => Cert.LibColumn.multiReduction_add_last_apply Y reduces_S4000x7_S4000 (.inl rfl) rfl p
  simp only [subf, log, exp, Cert.LibColumn.broadcastTo_a1_ab_apply, Cert.LibColumn.shapeCast_a_a1_apply, hS, hM, hZ]
  rfl

/-! ## From the blocks to the array -/

/-- The row and the column of an entry of the result array. -/
abbrev rowOf (i : S100000x7.Idx) : Fin 100000 := ⟨(i 0).val, (i 0).isLt⟩
abbrev colOf (i : S100000x7.Idx) : Fin 7 := ⟨(i 1).val, (i 1).isLt⟩

/-- Log-softmax along the rows of the array with the bias row added: entry (r, c) is `rowLSM` of row r's biased
    entries, at c. -/
def logSoftmax (a : Vec Ideal S100000x7 .f32) (b : Vec Ideal S1x7 .f32) : Vec Ideal S100000x7 .f32 :=
  fun i => rowLSM (fun k => a (ix2 (rowOf i) k) + b (ix2 (0 : Fin 1) k)) (colOf i)

theorem hz : (![0, 0] : Fin 2 → Nat) = fun _ => 0 := funext fun a => by fin_cases a <;> rfl

/-- The printed index maps over the grid: the row blocks of the input and of the result move together, block t at
    point t; the bias row is one block. -/
theorem blockIdx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the log-softmax of the biased array: row p of the block is row 4000 t + p of
    the array, and the bias row is the same at every point. -/
theorem written (c : Dev nD) (t : Fin cfg3.N) :
    (dat3 V c).flushed 2 t = ((cfg3.win 2).blk t).view.read (Elt Ideal) (logSoftmax (V c main_v61) (V c main_v62)) := by
  show (cfg3.win 2).cut (grid3.coords t) ((dat3 V c).after 2 t) = _
  rw [after3_2]
  unfold out3_2
  rw [View.canon_unit_zero hz]
  simp only [View.ld_unit_zero (S := S4000x7) hz, View.ld_unit_zero (S := S1x7) hz]
  funext j
  obtain ⟨e00, e01, e10, e11, e20, e21⟩ := blockIdx t
  show k3_pay1 (F := Ideal) (iblk3 V c 0 t) (iblk3 V c 1 t) ((win3 2).xinj (grid3.coords t) j)
      = logSoftmax (V c main_v61) (V c main_v62) (((cfg3.win 2).blk t).view.emb j)
  have hj : (win3 2).xinj (grid3.coords t) j = ix2 (⟨(j 0).val, (j 0).isLt⟩ : Fin 4000) (⟨(j 1).val, (j 1).isLt⟩ : Fin 7) := by
    funext a
    match a with
    | ⟨0, _⟩ => rfl
    | ⟨1, _⟩ => rfl
  rw [hj]
  refine (stored_apply (iblk3 V c 0 t) (iblk3 V c 1 t) ⟨(j 0).val, (j 0).isLt⟩ ⟨(j 1).val, (j 1).isLt⟩).trans ?_
  unfold logSoftmax
  have hcol : (⟨(j 1).val, (j 1).isLt⟩ : Fin 7) = colOf (((cfg3.win 2).blk t).view.emb j) := Fin.ext (by
    show (j 1).val = win3_2.index t (1 : Fin 2) * 7 + 1 * (j 1).val
    rw [e21]; omega)
  -- row p of the score block is row 4000 t + p of the score array; the bias block is the bias row
  have hscore : ∀ k : Fin 7, (iblk3 V c 0 t : Vec Ideal S4000x7 .f32) (ix2 (⟨(j 0).val, (j 0).isLt⟩ : Fin 4000) k)
      = V c main_v61 (ix2 (rowOf (((cfg3.win 2).blk t).view.emb j)) k) := fun k => by
    show V c main_v61 (((cfg3.win 0).blk t).view.emb (ix2 (⟨(j 0).val, (j 0).isLt⟩ : Fin 4000) k)) = _
    congr 1
    funext a; apply Fin.ext
    match a with
    | ⟨0, _⟩ => show win3_0.index t (0 : Fin 2) * 4000 + 1 * (j 0).val = win3_2.index t (0 : Fin 2) * 4000 + 1 * (j 0).val; rw [e00, e20]
    | ⟨1, _⟩ => show win3_0.index t (1 : Fin 2) * 7 + 1 * k.val = k.val; rw [e01]; omega
  have hbias : ∀ k : Fin 7, (iblk3 V c 1 t : Vec Ideal S1x7 .f32) (ix2 (0 : Fin 1) k) = V c main_v62 (ix2 (0 : Fin 1) k) := fun k => by
    show V c main_v62 (((cfg3.win 1).blk t).view.emb (ix2 (0 : Fin 1) k)) = _
    congr 1
    funext a; apply Fin.ext
    match a with
    | ⟨0, _⟩ => show win3_1.index t (0 : Fin 2) * 1 + 1 * 0 = 0; rw [e10]
    | ⟨1, _⟩ => show win3_1.index t (1 : Fin 2) * 7 + 1 * k.val = k.val; rw [e11]; omega
  rw [hcol]
  congr 1
  funext k
  rw [hscore k, hbias k]

/-- An index of the result array lies in point t's block iff, on each axis, its coordinate lies in the block's range. -/
theorem mem_block (t : Fin cfg3.N) (i : S100000x7.Idx) :
    i ∈ ((cfg3.win 2).blk t).view.set ↔ ∀ a : Fin 2, win3_2.index t a * S4000x7.size a ≤ (i a).val ∧ (i a).val < win3_2.index t a * S4000x7.size a + S4000x7.size a := by
  show i ∈ ((View.whole main_v63).slice (win3_2.rect t)).set ↔ _
  rw [View.set_slice_whole, Rect.mem_set_unit]
  exact Iff.rfl

/-- The 25 row blocks tile the result (row r lies in block r / 4000), so the array the region leaves is the log-softmax
    of the biased input. -/
theorem array (c : Dev nD) : (dat3 V c).arrAt 2 cfg3.N = logSoftmax (V c main_v61) (V c main_v62) :=
  (dat3 V c).arrAt_eq_of_cover 2 (logSoftmax (V c main_v61) (V c main_v62)) (fun t _ => written V c t) fun i => by
    have hi0 : (i 0).val < 100000 := (i 0).isLt
    have hi1 : (i 1).val < 7 := (i 1).isLt
    have hN : cfg3.N = 25 := N_3
    refine ⟨⟨(i 0).val / 4000, by rw [hN]; omega⟩, flush3_2 _, ?_⟩
    rw [mem_block]
    obtain ⟨-, -, -, -, e20, e21⟩ := blockIdx ⟨(i 0).val / 4000, by rw [hN]; omega⟩
    intro a
    match a with
    | ⟨0, _⟩ =>
      show win3_2.index _ (0 : Fin 2) * 4000 ≤ (i 0).val ∧ (i 0).val < win3_2.index _ (0 : Fin 2) * 4000 + 4000
      rw [e20]; simp only; omega
    | ⟨1, _⟩ =>
      show win3_2.index _ (1 : Fin 2) * 7 ≤ (i 1).val ∧ (i 1).val < win3_2.index _ (1 : Fin 2) * 7 + 7
      rw [e21]; omega

end Cert.KernelIdeal.Classify

end
-- ==== Proof.Bridge.lean ====
/-
  The reference's stages as the four array functions. The reference computes, over whole arrays: the product of the
  features with the first weight matrix; after the first aggregation, bias and rectifier; the product with the second
  weight matrix; after the second aggregation, bias and log-softmax. Read at an entry, each of these is the function the
  corresponding kernel region leaves in its result array: the host's dot_general is the same sum over the contracted
  coordinate; its bias is the [1, n] row read at (0, c); its rectifier is max with the zero word's value; its
  log_softmax takes the row's top as a reduce from −∞ joined once more with −∞, which changes nothing, and the row's
  sum from the zero word's value, which adds nothing.
-/
import proofs.«133555_j21646635172356_1_alg».proof.Proof.RefRead
import proofs.«133555_j21646635172356_1_alg».proof.Proof.Dense1
import proofs.«133555_j21646635172356_1_alg».proof.Proof.Dense2
import proofs.«133555_j21646635172356_1_alg».proof.Proof.BiasRelu
import proofs.«133555_j21646635172356_1_alg».proof.Proof.LogSoftmax
import proofs.«133555_j21646635172356_1_alg».proof.Proof.LibRowMax
import Idealize.ShloMosaic.Lib.IdealHost

set_option maxRecDepth 16384

noncomputable section

open Idealize.ShloMosaic Idealize.ShloMosaic.TcCoe Idealize.SL.Sem Idealize.ShloMosaic.ValueIdx

namespace Cert.Bridge

open Cert.ReferenceIdeal Cert.ReferenceIdeal.Gen Cert.ReferenceIdeal.Read

/-- The host's first dot_general is the full product, entry by entry. -/
theorem dense1 (x0 : (⟨S100000x512, .f32⟩ : BufTy).Contents (Elt Ideal)) (x1 : (⟨S512x16, .f32⟩ : BufTy).Contents (Elt Ideal)) :
    val_main_v32 (F := Ideal) x0 x1 = Cert.KernelIdeal.Dense1.product x0 x1 := by
  funext i
  rw [val_main_v32_apply]
  rfl

/-- The bias as a [1, 16] row: the reshape of the 16 entries and the broadcast of them along a new leading axis are one
    array (entry (0, c) is entry c). -/
theorem biasRow1 (x2 : (⟨S16, .f32⟩ : BufTy).Contents (Elt Ideal)) (h : S16.ShapeCasts S1x16) :
    shapeCast S1x16 x2 h = val_main_v46 (F := Ideal) x2 := by
  funext i
  rw [val_main_v46_apply]
  refine shapeCast_apply x2 h i (idx_main_v46 i) ?_
  rw [Shape.rowMajor_val_two, Shape.rowMajor_val_one]
  have h0 : (i 0).val < 1 := (i 0).isLt
  show (i 1).val = (i 0).val * 16 + (i 1).val
  omega

/-- Bias and rectifier on the host are the region's function of the aggregated array and the bias row. -/
theorem rectify (x0 : (⟨S100000x512, .f32⟩ : BufTy).Contents (Elt Ideal)) (x1 : (⟨S512x16, .f32⟩ : BufTy).Contents (Elt Ideal))
    (x2 : (⟨S16, .f32⟩ : BufTy).Contents (Elt Ideal)) (x5 : (⟨S2x3200000, .i32⟩ : BufTy).Contents (Elt Ideal)) :
    val_main_v49 (F := Ideal) x0 x1 x2 x5
      = Cert.KernelIdeal.Rectify.biasRelu (val_main_v45 (F := Ideal) x0 x1 x5) (val_main_v46 (F := Ideal) x2) := by
  funext i
  rw [val_main_v49_apply, val_main_v48_apply, val_main_v47_apply, val_main_call1_v0_apply, val_main_call1_cst_apply]
  rfl

/-- The host's second dot_general is the full product, entry by entry. -/
theorem dense2 (x0 : (⟨S100000x512, .f32⟩ : BufTy).Contents (Elt Ideal)) (x1 : (⟨S512x16, .f32⟩ : BufTy).Contents (Elt Ideal))
    (x2 : (⟨S16, .f32⟩ : BufTy).Contents (Elt Ideal)) (x3 : (⟨S16x7, .f32⟩ : BufTy).Contents (Elt Ideal))
    (x5 : (⟨S2x3200000, .i32⟩ : BufTy).Contents (Elt Ideal)) :
    val_main_v50 (F := Ideal) x0 x1 x2 x3 x5 = Cert.KernelIdeal.Dense2.product (val_main_v49 (F := Ideal) x0 x1 x2 x5) x3 := by
  funext i
  rw [val_main_v50_apply]
  rfl

/-- The bias as a [1, 7] row, likewise. -/
theorem biasRow2 (x4 : (⟨S7, .f32⟩ : BufTy).Contents (Elt Ideal)) (h : S7.ShapeCasts S1x7) :
    shapeCast S1x7 x4 h = val_main_v64 (F := Ideal) x4 := by
  funext i
  rw [val_main_v64_apply]
  refine shapeCast_apply x4 h i (idx_main_v64 i) ?_
  rw [Shape.rowMajor_val_two, Shape.rowMajor_val_one]
  have h0 : (i 0).val < 1 := (i 0).isLt
  show (i 1).val = (i 0).val * 7 + (i 1).val
  omega

/-! ## The second layer's log_softmax

Everything about the host's log_softmax chain is proved for an ARBITRARY [100000, 7] array first; the reference's own
stages then enter only to be unfolded to that chain and replaced by a name. -/

/-- Index bookkeeping of the reference's broadcasts and reductions along a row, each by cases on the axis. -/
theorem idx_bias (r : Fin 100000) (k : Fin 7) : idx_main_v65 (ix2 r k) = ix2 (0 : Fin 1) k :=
  funext fun a => by
    match a with
    | ⟨0, _⟩ => rfl
    | ⟨1, _⟩ => rfl
theorem idx_col (r : Fin 100000) (k : Fin 7) : idx_main_call2_v3 (idx_main_call2_v4 (ix2 r k)) = ix1 r :=
  funext fun a => by
    match a with
    | ⟨0, _⟩ => rfl
theorem idx_col' (r : Fin 100000) (k : Fin 7) : idx_main_call2_v8 (idx_main_call2_v10 (ix2 r k)) = ix1 r :=
  funext fun a => by
    match a with
    | ⟨0, _⟩ => rfl
theorem idx_row (r : Fin 100000) (k : Fin 7) : idx_main_call2_v7 (ix1 r) k = ix2 r k :=
  funext fun a => by
    match a with
    | ⟨0, _⟩ => rfl
    | ⟨1, _⟩ => rfl

variable {F : FTy → Type} [FloatOps F]

/-- The host's row top spread back over the columns, for ANY array Y. -/
def topCols (Y : (⟨S100000x7, .f32⟩ : BufTy).Contents (Elt F)) : (⟨S100000x7, .f32⟩ : BufTy).Contents (Elt F) :=
  broadcastInDim S100000x7 ![0, 1] bcast_S100000x1_S100000x7_0_1
    (broadcastInDim S100000x1 ![0] bcast_S100000_S100000x1_0
      (maximumf (broadcastInDim S100000 ![] bcast_S_S100000 (constant S_ .f32 0xFF800000#32))
        (Host.reduce FloatOps.maximumf Y (constant S_ .f32 0xFF800000#32) reducesTo_S100000x7_S100000_d1 h_S_)))

/-- The host's log_softmax chain, for ANY array Y: shift by the row top, then subtract the log of the row sum of exps. -/
def hostLSM (Y : (⟨S100000x7, .f32⟩ : BufTy).Contents (Elt F)) : (⟨S100000x7, .f32⟩ : BufTy).Contents (Elt F) :=
  subf (subf Y (topCols (F := F) Y))
    (broadcastInDim S100000x7 ![0, 1] bcast_S100000x1_S100000x7_0_1
      (Host.log (broadcastInDim S100000x1 ![0] bcast_S100000_S100000x1_0
        (Host.reduceAdd (Host.exp (subf Y (topCols (F := F) Y))) (constant S_ .f32 0x00000000#32) reducesTo_S100000x7_S100000_d1 h_S_))))

/-- A [100000] array spread to a column and then over the seven columns reads, at (r, k), the array at r. -/
theorem cols_apply (v : (⟨S100000, .f32⟩ : BufTy).Contents (Elt Ideal)) (r : Fin 100000) (k : Fin 7) :
    broadcastInDim S100000x7 ![0, 1] bcast_S100000x1_S100000x7_0_1 (broadcastInDim S100000x1 ![0] bcast_S100000_S100000x1_0 v) (ix2 r k)
      = v (ix1 r) := by
  rw [broadcastInDim_apply ![0, 1] bcast_S100000x1_S100000x7_0_1 _ (ix2 r k) (ix2 r (0 : Fin 1)) (fun a => by
    match a with
    | ⟨0, _⟩ => show r.val = if (100000 : Nat) = 1 then 0 else r.val; simp
    | ⟨1, _⟩ => rfl)]
  rw [broadcastInDim_apply ![0] bcast_S100000_S100000x1_0 v (ix2 r (0 : Fin 1)) (ix1 r) (fun a => by
    match a with
    | ⟨0, _⟩ => show r.val = if (100000 : Nat) = 1 then 0 else r.val; simp)]

/-- The spread row top at (r, k) is the fold of max from −∞ over row r: the reduce from −∞ over the row, joined once more
    with −∞, which changes nothing. -/
theorem topCols_apply (Y : (⟨S100000x7, .f32⟩ : BufTy).Contents (Elt Ideal)) (r : Fin 100000) (k : Fin 7) :
    topCols (F := Ideal) Y (ix2 r k) = (Finset.univ : Finset (Fin 7)).fold max (FloatOps.ofBits (F := Ideal) .f32 0xFF800000#32) (fun k' => Y (ix2 r k')) := by
  unfold topCols
  rw [cols_apply]
  have hred : Host.reduce (FloatOps.maximumf (F := Ideal)) Y (constant S_ .f32 0xFF800000#32) reducesTo_S100000x7_S100000_d1 h_S_ (ix1 r)
      = (Finset.univ : Finset (Fin 7)).fold max (FloatOps.ofBits (F := Ideal) .f32 0xFF800000#32) (fun k' => Y (ix2 r k')) := by
    refine (Host.reduce_eq_fold_single (FloatOps.maximumf (F := Ideal)) Y _ reducesTo_S100000x7_S100000_d1
      (by decide : S100000x7.Reduces [1] S100000) h_S_ (ix1 r)).trans ?_
    show Finset.fold max _ _ Finset.univ = Finset.fold max _ _ Finset.univ
    congr 1
    funext k'
    exact congrArg Y (Cert.LibColumn.lift_last_ix1 _ r k')
  show FloatOps.maximumf ((broadcastInDim S100000 ![] bcast_S_S100000 (constant (F := Ideal) S_ .f32 0xFF800000#32)) (ix1 r))
      (Host.reduce (FloatOps.maximumf (F := Ideal)) Y (constant S_ .f32 0xFF800000#32) reducesTo_S100000x7_S100000_d1 h_S_ (ix1 r)) = _
  rw [hred]
  exact Cert.LibRowMax.max_fold_max_self _ _ _

/-- A [100000] array spread to a column, its logarithm taken, and spread over the seven columns reads, at (r, k), the
    logarithm of the array at r. -/
theorem logCols_apply (v : (⟨S100000, .f32⟩ : BufTy).Contents (Elt Ideal)) (r : Fin 100000) (k : Fin 7) :
    broadcastInDim S100000x7 ![0, 1] bcast_S100000x1_S100000x7_0_1 (Host.log (F := Ideal) (φ := .f32) (broadcastInDim S100000x1 ![0] bcast_S100000_S100000x1_0 v)) (ix2 r k)
      = Ideal.log (v (ix1 r)) := by
  rw [broadcastInDim_apply ![0, 1] bcast_S100000x1_S100000x7_0_1 _ (ix2 r k) (ix2 r (0 : Fin 1)) (fun a => by
    match a with
    | ⟨0, _⟩ => show r.val = if (100000 : Nat) = 1 then 0 else r.val; simp
    | ⟨1, _⟩ => rfl)]
  show Ideal.log (broadcastInDim S100000x1 ![0] bcast_S100000_S100000x1_0 v (ix2 r (0 : Fin 1))) = _
  rw [broadcastInDim_apply ![0] bcast_S100000_S100000x1_0 v (ix2 r (0 : Fin 1)) (ix1 r) (fun a => by
    match a with
    | ⟨0, _⟩ => show r.val = if (100000 : Nat) = 1 then 0 else r.val; simp)]

/-- The host's row sum from the zero word's value, for ANY array E, is the sum of the row's seven entries. -/
theorem rowSum_apply (E : (⟨S100000x7, .f32⟩ : BufTy).Contents (Elt Ideal)) (r : Fin 100000) :
    Host.reduceAdd E (constant (F := Ideal) S_ .f32 0x00000000#32) reducesTo_S100000x7_S100000_d1 h_S_ (ix1 r) = ∑ k : Fin 7, E (ix2 r k) := by
  simp only [Host.reduceAdd, Ideal.hostReduceAdd_def]
  rw [Ideal.hostReduceAdd_single reducesTo_S100000x7_S100000_d1 (by decide)]
  rw [show (constant (F := Ideal) S_ .f32 0x00000000#32) (Shape.Idx.first h_S_) = (0 : EReal) from Ideal.ofBits_zero_f32, zero_add]
  exact Finset.sum_congr rfl fun k _ => congrArg E (Cert.LibColumn.lift_last_ix1 _ r k)

/-- The host's log_softmax chain at (r, q), for ANY array Y, is the row function of Y's row r at q. -/
theorem hostLSM_apply (Y : (⟨S100000x7, .f32⟩ : BufTy).Contents (Elt Ideal)) (r : Fin 100000) (q : Fin 7) :
    hostLSM (F := Ideal) Y (ix2 r q) = Cert.KernelIdeal.Classify.rowLSM (fun k => Y (ix2 r k)) q := by
  unfold hostLSM
  have hsh : ∀ k : Fin 7, (subf (F := Ideal) (φ := .f32) Y (topCols (F := Ideal) Y)) (ix2 r k)
      = Y (ix2 r k) - (Finset.univ : Finset (Fin 7)).fold max (FloatOps.ofBits (F := Ideal) .f32 0xFF800000#32) (fun k' => Y (ix2 r k')) := fun k => by
    show Y (ix2 r k) - topCols (F := Ideal) Y (ix2 r k) = _
    rw [topCols_apply]
  show (subf (F := Ideal) (φ := .f32) Y (topCols (F := Ideal) Y)) (ix2 r q)
      - broadcastInDim S100000x7 ![0, 1] bcast_S100000x1_S100000x7_0_1 (Host.log (F := Ideal) (φ := .f32) (broadcastInDim S100000x1 ![0] bcast_S100000_S100000x1_0
          (Host.reduceAdd (Host.exp (F := Ideal) (φ := .f32) (subf (F := Ideal) (φ := .f32) Y (topCols (F := Ideal) Y))) (constant S_ .f32 0x00000000#32) reducesTo_S100000x7_S100000_d1 h_S_))) (ix2 r q) = _
  rw [logCols_apply, rowSum_apply, hsh q]
  have hexp : ∀ k : Fin 7, (Host.exp (F := Ideal) (φ := .f32) (subf (F := Ideal) (φ := .f32) Y (topCols (F := Ideal) Y))) (ix2 r k)
      = Ideal.exp (Y (ix2 r k) - (Finset.univ : Finset (Fin 7)).fold max (FloatOps.ofBits (F := Ideal) .f32 0xFF800000#32) (fun k' => Y (ix2 r k'))) := fun k => by
    show Ideal.exp ((subf (F := Ideal) (φ := .f32) Y (topCols (F := Ideal) Y)) (ix2 r k)) = _
    rw [hsh k]
  simp only [hexp]
  rfl

/-- The reference's last stage is the host chain applied to its biased scores: the stage definitions unfolded. -/
theorem stage_eq (x0 : (⟨S100000x512, .f32⟩ : BufTy).Contents (Elt Ideal)) (x1 : (⟨S512x16, .f32⟩ : BufTy).Contents (Elt Ideal))
    (x2 : (⟨S16, .f32⟩ : BufTy).Contents (Elt Ideal)) (x3 : (⟨S16x7, .f32⟩ : BufTy).Contents (Elt Ideal))
    (x4 : (⟨S7, .f32⟩ : BufTy).Contents (Elt Ideal)) (x5 : (⟨S2x3200000, .i32⟩ : BufTy).Contents (Elt Ideal)) :
    val_main_v67 (F := Ideal) x0 x1 x2 x3 x4 x5 = hostLSM (F := Ideal) (val_main_v66 (F := Ideal) x0 x1 x2 x3 x4 x5) := by
  unfold val_main_v67 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst hostLSM topCols
  generalize val_main_v66 (F := Ideal) x0 x1 x2 x3 x4 x5 = Y
  rfl

/-- The reference's biased scores at (r, k): the aggregated score plus the bias row's entry over column k. -/
theorem biased_row (x0 : (⟨S100000x512, .f32⟩ : BufTy).Contents (Elt Ideal)) (x1 : (⟨S512x16, .f32⟩ : BufTy).Contents (Elt Ideal))
    (x2 : (⟨S16, .f32⟩ : BufTy).Contents (Elt Ideal)) (x3 : (⟨S16x7, .f32⟩ : BufTy).Contents (Elt Ideal))
    (x4 : (⟨S7, .f32⟩ : BufTy).Contents (Elt Ideal)) (x5 : (⟨S2x3200000, .i32⟩ : BufTy).Contents (Elt Ideal)) (r : Fin 100000) (k : Fin 7) :
    val_main_v66 (F := Ideal) x0 x1 x2 x3 x4 x5 (ix2 r k)
      = val_main_v63 (F := Ideal) x0 x1 x2 x3 x5 (ix2 r k) + val_main_v64 (F := Ideal) x4 (ix2 (0 : Fin 1) k) := by
  rw [val_main_v66_apply, val_main_v65_apply, idx_bias]
  generalize val_main_v63 (F := Ideal) x0 x1 x2 x3 x5 = A
  rfl

/-- Bias and log_softmax on the host are the region's function of the aggregated scores and the bias row. -/
theorem classify (x0 : (⟨S100000x512, .f32⟩ : BufTy).Contents (Elt Ideal)) (x1 : (⟨S512x16, .f32⟩ : BufTy).Contents (Elt Ideal))
    (x2 : (⟨S16, .f32⟩ : BufTy).Contents (Elt Ideal)) (x3 : (⟨S16x7, .f32⟩ : BufTy).Contents (Elt Ideal))
    (x4 : (⟨S7, .f32⟩ : BufTy).Contents (Elt Ideal)) (x5 : (⟨S2x3200000, .i32⟩ : BufTy).Contents (Elt Ideal)) :
    val_main_v67 (F := Ideal) x0 x1 x2 x3 x4 x5
      = Cert.KernelIdeal.Classify.logSoftmax (val_main_v63 (F := Ideal) x0 x1 x2 x3 x5) (val_main_v64 (F := Ideal) x4) := by
  funext i
  obtain ⟨r, q, rfl⟩ : ∃ (r : Fin 100000) (q : Fin 7), i = ix2 r q := ⟨i 0, i 1, eq_ix2 i⟩
  rw [stage_eq, hostLSM_apply]
  have hrow : (fun k : Fin 7 => val_main_v66 (F := Ideal) x0 x1 x2 x3 x4 x5 (ix2 r k))
      = fun k : Fin 7 => val_main_v63 (F := Ideal) x0 x1 x2 x3 x5 (ix2 r k) + val_main_v64 (F := Ideal) x4 (ix2 (0 : Fin 1) k) :=
    funext fun k => biased_row x0 x1 x2 x3 x4 x5 r k
  rw [hrow]
  generalize val_main_v63 (F := Ideal) x0 x1 x2 x3 x5 = A
  generalize val_main_v64 (F := Ideal) x4 = B
  rfl

end Cert.Bridge

end
-- ==== Proof.Stages.lean ====
/-
  The kernel's result, boundary by boundary. @main's buffers at each boundary between host stretches and regions are a
  fold from the launch contents. Walking it: after the leading host operations the sources, the targets and the
  normalisation hold the reference's stages of the edge list; region 0 leaves the first product; the next stretch
  aggregates it; region 1 adds the bias and rectifies; region 2 leaves the second product; the last stretch aggregates
  that; region 3 adds the bias and takes the log-softmax. A region changes only its own result array and a stretch only
  the buffers it writes, so whatever a later step reads still holds what an earlier step left. At the end the result
  buffer holds the reference's last stage of the six arguments.
-/
import proofs.«133555_j21646635172356_1_alg».proof.Proof.HostStages
import proofs.«133555_j21646635172356_1_alg».proof.Proof.Bridge

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen

variable (m : (ℓ : Loc nD τ sig) → Buf (Elt Ideal) ℓ) (ρ : Dev nD → PrngReg)

/-- The six arguments as launched, on core c. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## What region 0 and the stretch after it read, at region 0's exit -/

theorem src4 (c : Dev nD) : W4 m ρ c (Proc.devRef .tc main_v3) = Cert.ReferenceIdeal.Read.val_main_v3 (F := Ideal) (x5 m c) :=
  (W4_of_ne m ρ c main_v3 (by decide)).trans (HostStages.lead_src m ρ c)
theorem dst4 (c : Dev nD) : W4 m ρ c (Proc.devRef .tc main_v6) = Cert.ReferenceIdeal.Read.val_main_v6 (F := Ideal) (x5 m c) :=
  (W4_of_ne m ρ c main_v6 (by decide)).trans (HostStages.lead_dst m ρ c)
theorem norm4 (c : Dev nD) : W4 m ρ c (Proc.devRef .tc main_v31) = Cert.ReferenceIdeal.Read.val_main_v31 (F := Ideal) (x5 m c) :=
  (W4_of_ne m ρ c main_v31 (by decide)).trans (HostStages.lead_norm m ρ c)
theorem arg2_4 (c : Dev nD) : W4 m ρ c (Proc.devRef .tc main_arg2) = x2 m c :=
  (W4_of_ne m ρ c main_arg2 (by decide)).trans (HostStages.lead_arg2 m ρ c)
theorem arg3_4 (c : Dev nD) : W4 m ρ c (Proc.devRef .tc main_arg3) = x3 m c :=
  (W4_of_ne m ρ c main_arg3 (by decide)).trans (HostStages.lead_arg3 m ρ c)
theorem arg4_4 (c : Dev nD) : W4 m ρ c (Proc.devRef .tc main_arg4) = x4 m c :=
  (W4_of_ne m ρ c main_arg4 (by decide)).trans (HostStages.lead_arg4 m ρ c)

/-- Region 0 leaves the first product. -/
theorem prod1 (c : Dev nD) : W4 m ρ c (Proc.devRef .tc main_v32) = Cert.ReferenceIdeal.Read.val_main_v32 (F := Ideal) (x0 m c) (x1 m c) := by
  refine (W4_arr m ρ c 2).trans ((Dense1.array (V3 m ρ) c).trans ?_)
  rw [Cert.Bridge.dense1]
  exact congrArg₂ Dense1.product (HostStages.lead_arg0 m ρ c) (HostStages.lead_arg1 m ρ c)

/-! ## At region 1's entry: the first aggregation and the bias row -/

theorem agg1 (c : Dev nD) : W5 m ρ c (Proc.devRef .tc main_v45) = Cert.ReferenceIdeal.Read.val_main_v45 (F := Ideal) (x0 m c) (x1 m c) (x5 m c) :=
  HostStages.agg1_of (W4 m ρ c) (x0 m c) (x1 m c) (x5 m c) (prod1 m ρ c) (norm4 m ρ c) (src4 m ρ c) (dst4 m ρ c)
theorem bias1 (c : Dev nD) : W5 m ρ c (Proc.devRef .tc main_v46) = Cert.ReferenceIdeal.Read.val_main_v46 (F := Ideal) (x2 m c) :=
  (HostStages.bias1_of (W4 m ρ c) (x2 m c) (arg2_4 m ρ c)).trans (Cert.Bridge.biasRow1 (x2 m c) _)

/-- Region 1 leaves the rectified, biased aggregation. -/
theorem hidden (c : Dev nD) :
    W6 m ρ c (Proc.devRef .tc main_v47) = Cert.ReferenceIdeal.Read.val_main_v49 (F := Ideal) (x0 m c) (x1 m c) (x2 m c) (x5 m c) := by
  refine (W6_arr m ρ c 2).trans ((Rectify.array (V5 m ρ) c).trans ?_)
  rw [Cert.Bridge.rectify]
  exact congrArg₂ Rectify.biasRelu (agg1 m ρ c) (bias1 m ρ c)

/-! ## Through regions 1 and 2 -/

theorem arg3_6 (c : Dev nD) : W6 m ρ c (Proc.devRef .tc main_arg3) = x3 m c :=
  (W6_of_ne m ρ c main_arg3 (by decide)).trans ((HostStages.keep1_main_arg3 (W4 m ρ c)).trans (arg3_4 m ρ c))

/-- Region 2 leaves the second product. -/
theorem prod2 (c : Dev nD) :
    W7 m ρ c (Proc.devRef .tc main_v48) = Cert.ReferenceIdeal.Read.val_main_v50 (F := Ideal) (x0 m c) (x1 m c) (x2 m c) (x3 m c) (x5 m c) := by
  refine (W7_arr m ρ c 2).trans ((Dense2.array (V6 m ρ) c).trans ?_)
  rw [Cert.Bridge.dense2]
  exact congrArg₂ Dense2.product (hidden m ρ c) (arg3_6 m ρ c)

theorem src7 (c : Dev nD) : W7 m ρ c (Proc.devRef .tc main_v3) = Cert.ReferenceIdeal.Read.val_main_v3 (F := Ideal) (x5 m c) :=
  (W7_of_ne m ρ c main_v3 (by decide)).trans ((W6_of_ne m ρ c main_v3 (by decide)).trans ((HostStages.keep1_main_v3 (W4 m ρ c)).trans (src4 m ρ c)))
theorem dst7 (c : Dev nD) : W7 m ρ c (Proc.devRef .tc main_v6) = Cert.ReferenceIdeal.Read.val_main_v6 (F := Ideal) (x5 m c) :=
  (W7_of_ne m ρ c main_v6 (by decide)).trans ((W6_of_ne m ρ c main_v6 (by decide)).trans ((HostStages.keep1_main_v6 (W4 m ρ c)).trans (dst4 m ρ c)))
theorem norm7 (c : Dev nD) : W7 m ρ c (Proc.devRef .tc main_v31) = Cert.ReferenceIdeal.Read.val_main_v31 (F := Ideal) (x5 m c) :=
  (W7_of_ne m ρ c main_v31 (by decide)).trans ((W6_of_ne m ρ c main_v31 (by decide)).trans ((HostStages.keep1_main_v31 (W4 m ρ c)).trans (norm4 m ρ c)))
theorem arg4_7 (c : Dev nD) : W7 m ρ c (Proc.devRef .tc main_arg4) = x4 m c :=
  (W7_of_ne m ρ c main_arg4 (by decide)).trans ((W6_of_ne m ρ c main_arg4 (by decide)).trans ((HostStages.keep1_main_arg4 (W4 m ρ c)).trans (arg4_4 m ρ c)))

/-! ## At region 3's entry: the second aggregation and the bias row -/

theorem agg2 (c : Dev nD) :
    W8 m ρ c (Proc.devRef .tc main_v61) = Cert.ReferenceIdeal.Read.val_main_v63 (F := Ideal) (x0 m c) (x1 m c) (x2 m c) (x3 m c) (x5 m c) :=
  HostStages.agg2_of (W7 m ρ c) (x0 m c) (x1 m c) (x2 m c) (x3 m c) (x5 m c) (prod2 m ρ c) (norm7 m ρ c) (src7 m ρ c) (dst7 m ρ c)
theorem bias2 (c : Dev nD) : W8 m ρ c (Proc.devRef .tc main_v62) = Cert.ReferenceIdeal.Read.val_main_v64 (F := Ideal) (x4 m c) :=
  (HostStages.bias2_of (W7 m ρ c) (x4 m c) (arg4_7 m ρ c)).trans (Cert.Bridge.biasRow2 (x4 m c) _)

/-- Region 3 leaves the log-softmax of the biased second aggregation: the reference's result. -/
theorem result (c : Dev nD) :
    W9 m ρ c (Proc.devRef .tc main_v63)
      = Cert.ReferenceIdeal.Read.val_main_v67 (F := Ideal) (x0 m c) (x1 m c) (x2 m c) (x3 m c) (x4 m c) (x5 m c) := by
  refine (W9_arr m ρ c 2).trans ((Classify.array (V8 m ρ) c).trans ?_)
  rw [Cert.Bridge.classify]
  exact congrArg₂ Classify.logSoftmax (agg2 m ρ c) (bias2 m ρ c)

end Cert.KernelIdeal.Stages

end
-- ==== Proof.lean ====
/-
  A two-layer graph convolution, kernel against reference, over the extended reals.

  Both programs take node features x [100000, 512], weights W1 [512, 16], W2 [16, 7], biases b1, b2 and an edge list
  [2, 3200000]. Both append a self-loop to every node, count in-degrees with a scatter-add of ones, scale every edge by
  the inverse root degrees of its two ends, and then twice do: a dense product, a gather of the product's rows at the
  edges' sources, the scaling, and a scatter-add into the edges' targets. After the first such aggregation comes the bias
  and the rectifier, after the second the bias and a log-softmax along each row.

  The reference does all of it in host operations on whole arrays. The kernel does the edge work in the same host
  operations, and the four dense, row-wise steps in four pipelined regions that each handle 4000 rows at a grid point:
  x · W1, max (a + b1, 0), h · W2, and log-softmax (a + b2). Over the extended reals the roundings to bf16 inside the two
  products are the identity, a block's rows are the array's rows, and none of the four steps mixes rows, so each region
  leaves in its result array exactly what the reference's whole-array operation computes from the same operands; the
  host operations between them are the reference's own. By induction along @main the kernel's result buffer ends at the
  reference's last stage of the six arguments. No law that needs finiteness is used: the two sides are the same sums,
  maxima and folds in the same order, and the one extra step on the reference's side, joining −∞ once more into a
  maximum that already started from −∞, changes nothing.

  The three frames: the kernel's and its idealization's are the generated frame certificates; the reference's is its
  run with the result forgotten. The ideal pass rewrote nothing, so there is nothing to preserve.
-/
import proofs.«133555_j21646635172356_1_alg».proof.Defs
import proofs.«133555_j21646635172356_1_alg».proof.Proof.Gen.Kernel
import proofs.«133555_j21646635172356_1_alg».proof.Proof.Gen.Kernel.Skeleton
import proofs.«133555_j21646635172356_1_alg».proof.Proof.Gen.Kernel.Launch
import proofs.«133555_j21646635172356_1_alg».proof.Proof.Gen.Kernel.Points
import proofs.«133555_j21646635172356_1_alg».proof.Proof.Gen.Kernel.Frame
import proofs.«133555_j21646635172356_1_alg».proof.Proof.Gen.KernelIdeal
import proofs.«133555_j21646635172356_1_alg».proof.Proof.Gen.KernelIdeal.Skeleton
import proofs.«133555_j21646635172356_1_alg».proof.Proof.Gen.KernelIdeal.Launch
import proofs.«133555_j21646635172356_1_alg».proof.Proof.Gen.KernelIdeal.Points
import proofs.«133555_j21646635172356_1_alg».proof.Proof.Gen.KernelIdeal.Frame
import proofs.«133555_j21646635172356_1_alg».proof.Proof.Gen.ReferenceIdeal
import proofs.«133555_j21646635172356_1_alg».proof.Proof.Gen.Pre_finite_inputs
import proofs.«133555_j21646635172356_1_alg».proof.Proof.KernelRun
import proofs.«133555_j21646635172356_1_alg».proof.Proof.RefRun
import proofs.«133555_j21646635172356_1_alg».proof.Proof.RefRead
import proofs.«133555_j21646635172356_1_alg».proof.Proof.Stages
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the reference's last stage of those arguments in
    their result buffers: the kernel by the walk along its @main, the reference by its own run. -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v67_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
